-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64x56x56 : Shape := ⟨4, ![128, 64, 56, 56]⟩
abbrev S4x64 : Shape := ⟨2, ![4, 64]⟩
abbrev S4 : Shape := ⟨1, ![4]⟩
abbrev S64x4 : Shape := ⟨2, ![64, 4]⟩
abbrev S64 : Shape := ⟨1, ![64]⟩
abbrev S_ : Shape := ⟨0, ![]⟩

class Facts : Prop where
  bcast_S_S128x64x56x56 : S_.BroadcastsInDim S128x64x56x56 (![] : Fin 0 → Fin S128x64x56x56.rank)
  reducesTo_S128x64x56x56_S_d0_1_2_3 : S128x64x56x56.ReducesTo [0, 1, 2, 3] S_
  h_S_ : 0 < S_.numel
  bcast_S_S4x64 : S_.BroadcastsInDim S4x64 (![] : Fin 0 → Fin S4x64.rank)
  reducesTo_S4x64_S_d0_1 : S4x64.ReducesTo [0, 1] S_
  bcast_S_S4 : S_.BroadcastsInDim S4 (![] : Fin 0 → Fin S4.rank)
  reducesTo_S4_S_d0 : S4.ReducesTo [0] S_
  bcast_S_S64x4 : S_.BroadcastsInDim S64x4 (![] : Fin 0 → Fin S64x4.rank)
  reducesTo_S64x4_S_d0_1 : S64x4.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x4 1) : IVec S_ 1 :=
  let main_c_5 : IVec S_ 1 := constantI S_ 1 1#1
  let main_v17 : IVec S_ 1 := (fun x v => Host.reduce IntOp.andi x v reducesTo_S64x4_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S128x64x56x56 .f32) (main_arg1 : FVec F S4x64 .f32) (main_arg2 : FVec F S4 .f32) (main_arg3 : FVec F S64x4 .f32) (main_arg4 : FVec F S64 .f32) : IVec S_ 1 :=
  let main_v0 : FVec F S128x64x56x56 .f32 := Host.absf main_arg0
  let main_cst : FVec F S_ .f32 := constant S_ .f32 0x7F800000#32
  let main_v1 : FVec F S128x64x56x56 .f32 := broadcastInDim S128x64x56x56 ![] bcast_S_S128x64x56x56 main_cst
  let main_v2 : IVec S128x64x56x56 1 := cmpf .olt main_v0 main_v1
  let main_c : IVec S_ 1 := constantI S_ 1 1#1
  let main_v3 : IVec S_ 1 := (fun x v => Host.reduce IntOp.andi x v reducesTo_S128x64x56x56_S_d0_1_2_3 h_S_) main_v2 main_c
  let main_v4 : FVec F S4x64 .f32 := Host.absf main_arg1
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S64x4 .f32 := Host.absf main_arg3
  let main_cst_4 : FVec F S_ .f32 := constant S_ .f32 0x7F800000#32
  let main_v15 : FVec F S64x4 .f32 := broadcastInDim S64x4 ![] bcast_S_S64x4 main_cst_4
  let main_v16 : IVec S64x4 1 := cmpf .olt main_v14 main_v15
  fn_part1 (F := F) main_arg4 main_v13 main_v16
-- ==== Kernel.lean ====
abbrev S128x64x56x56 : Shape := ⟨4, ![128, 64, 56, 56]⟩
abbrev S4x64 : Shape := ⟨2, ![4, 64]⟩
abbrev S4 : Shape := ⟨1, ![4]⟩
abbrev S64x4 : Shape := ⟨2, ![64, 4]⟩
abbrev S64 : Shape := ⟨1, ![64]⟩
abbrev S1x4 : Shape := ⟨2, ![1, 4]⟩
abbrev S1x64 : Shape := ⟨2, ![1, 64]⟩
abbrev S4x64x56x56 : Shape := ⟨4, ![4, 64, 56, 56]⟩
abbrev S4x64x56 : Shape := ⟨3, ![4, 64, 56]⟩
abbrev S4x64x1x56 : Shape := ⟨4, ![4, 64, 1, 56]⟩
abbrev S4x64x1 : Shape := ⟨3, ![4, 64, 1]⟩
abbrev S4x64x1x1 : Shape := ⟨4, ![4, 64, 1, 1]⟩
abbrev S1x64x4 : Shape := ⟨3, ![1, 64, 4]⟩
abbrev S64x1 : Shape := ⟨2, ![64, 1]⟩
abbrev S1x64x1 : Shape := ⟨3, ![1, 64, 1]⟩
abbrev S4x64x4 : Shape := ⟨3, ![4, 64, 4]⟩
abbrev S4x4 : Shape := ⟨2, ![4, 4]⟩
abbrev S4x1x4 : Shape := ⟨3, ![4, 1, 4]⟩
abbrev S1x1x4 : Shape := ⟨3, ![1, 1, 4]⟩

abbrev nBuf : Space → Nat
  | .hbm => 8
  | .vmem => 8
  | .smem => 0
  | _ => 0

abbrev bufTy : (tb : Table) → Fin (tcTables nBuf tb) → BufTy
  | .hbm, ⟨0, _⟩ => ⟨S128x64x56x56, .f32⟩
  | .hbm, ⟨1, _⟩ => ⟨S4x64, .f32⟩
  | .hbm, ⟨2, _⟩ => ⟨S4, .f32⟩
  | .hbm, ⟨3, _⟩ => ⟨S64x4, .f32⟩
  | .hbm, ⟨4, _⟩ => ⟨S64, .f32⟩
  | .hbm, ⟨5, _⟩ => ⟨S1x4, .f32⟩
  | .hbm, ⟨6, _⟩ => ⟨S1x64, .f32⟩
  | .hbm, ⟨7, _⟩ => ⟨S128x64x56x56, .f32⟩
  | .local _ .vmem, ⟨0, _⟩ => ⟨S4x64x56x56, .f32⟩
  | .local _ .vmem, ⟨1, _⟩ => ⟨S4x64x56x56, .f32⟩
  | .local _ .vmem, ⟨2, _⟩ => ⟨S4x64, .f32⟩
  | .local _ .vmem, ⟨3, _⟩ => ⟨S1x4, .f32⟩
  | .local _ .vmem, ⟨4, _⟩ => ⟨S64x4, .f32⟩
  | .local _ .vmem, ⟨5, _⟩ => ⟨S1x64, .f32⟩
  | .local _ .vmem, ⟨6, _⟩ => ⟨S4x64x56x56, .f32⟩
  | .local _ .vmem, ⟨7, _⟩ => ⟨S4x64x56x56, .f32⟩
  | _, _ => ⟨S128x64x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x64x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x64x56x56 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4_S1x4 : S4.ShapeCasts S1x4
  shapeCasts_S64_S1x64 : S64.ShapeCasts S1x64
  inb_S4x64x56x56_S4x64x56x56_0_0_0_0 : ∀ a, (![0, 0, 0, 0] : Fin 4 → Nat) a + S4x64x56x56.size a ≤ S4x64x56x56.size a
  h_S4x64x56x56 : 0 < S4x64x56x56.numel
  reduces_S4x64x56x56_S4x64x56 : S4x64x56x56.Reduces [2] S4x64x56
  shapeCasts_S4x64x56_S4x64x1x56 : S4x64x56.ShapeCasts S4x64x1x56
  reduces_S4x64x1x56_S4x64x1 : S4x64x1x56.Reduces [3] S4x64x1
  shapeCasts_S4x64x1_S4x64x1x1 : S4x64x1.ShapeCasts S4x64x1x1
  shapeCasts_S4x64x1x1_S4x64x1 : S4x64x1x1.ShapeCasts S4x64x1
  inb_S4x64_S4x64_0_0 : ∀ a, (![0, 0] : Fin 2 → Nat) a + S4x64.size a ≤ S4x64.size a
  h_S4x64 : 0 < S4x64.numel
  transposes_S4x64_p1_0_S64x4 : S4x64.Transposes [1, 0] S64x4
  shapeCasts_S64x4_S1x64x4 : S64x4.ShapeCasts S1x64x4
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S1x64_p1_0_S64x1 : S1x64.Transposes [1, 0] S64x1
  shapeCasts_S64x1_S1x64x1 : S64x1.ShapeCasts S1x64x1
  broadcasts_S4x64x1_S4x64x4 : S4x64x1.Broadcasts S4x64x4
  broadcasts_S1x64x4_S4x64x4 : S1x64x4.Broadcasts S4x64x4
  reduces_S4x64x4_S4x4 : S4x64x4.Reduces [1] S4x4
  shapeCasts_S4x4_S4x1x4 : S4x4.ShapeCasts S4x1x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  shapeCasts_S1x4_S1x1x4 : S1x4.ShapeCasts S1x1x4
  broadcasts_S1x1x4_S4x1x4 : S1x1x4.Broadcasts S4x1x4
  inb_S64x4_S64x4_0_0 : ∀ a, (![0, 0] : Fin 2 → Nat) a + S64x4.size a ≤ S64x4.size a
  h_S64x4 : 0 < S64x4.numel
  broadcasts_S4x1x4_S4x64x4 : S4x1x4.Broadcasts S4x64x4
  reduces_S4x64x4_S4x64 : S4x64x4.Reduces [2] S4x64
  shapeCasts_S4x64_S4x64x1 : S4x64.ShapeCasts S4x64x1
  broadcasts_S1x64x1_S4x64x1 : S1x64x1.Broadcasts S4x64x1
  broadcasts_S4x64x1x1_S4x64x56x56 : S4x64x1x1.Broadcasts S4x64x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x64x56x56.size a ≤ S128x64x56x56.size a
  hwx0_0 : ∀ i : grid0.Coords, EltTy.bits .f32 = 32 ∨ (Rect.block (s := S128x64x56x56) S4x64x56x56.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64.size a ≤ S4x64.size a
  hwx0_1 : ∀ i : grid0.Coords, EltTy.bits .f32 = 32 ∨ (Rect.block (s := S4x64) S4x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4.size a ≤ S1x4.size a
  hwx0_2 : ∀ i : grid0.Coords, EltTy.bits .f32 = 32 ∨ (Rect.block (s := S1x4) S1x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x4.size a ≤ S64x4.size a
  hwx0_3 : ∀ i : grid0.Coords, EltTy.bits .f32 = 32 ∨ (Rect.block (s := S64x4) S64x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x64x56x56.size a ≤ S128x64x56x56.size a
  hwx0_5 : ∀ i : grid0.Coords, EltTy.bits .f32 = 32 ∨ (Rect.block (s := S128x64x56x56) S4x64x56x56.size (cc0_transform_5 i) (hinb0_5 i)).WholeWords (EltTy.packing .f32)

variable [Facts₀]

abbrev win0_0 : Pipeline.Window sig grid0 :=
  Pipeline.Window.ofSpec (Memref.whole main_arg0) S4x64x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S4x64x56x56.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S128x64x56x56 : Shape := ⟨4, ![128, 64, 56, 56]⟩
abbrev S4x64 : Shape := ⟨2, ![4, 64]⟩
abbrev S4 : Shape := ⟨1, ![4]⟩
abbrev S64x4 : Shape := ⟨2, ![64, 4]⟩
abbrev S64 : Shape := ⟨1, ![64]⟩
abbrev S128x64x3136 : Shape := ⟨3, ![128, 64, 3136]⟩
abbrev S1x4 : Shape := ⟨2, ![1, 4]⟩
abbrev S64x1 : Shape := ⟨2, ![64, 1]⟩
abbrev S1x64x3136 : Shape := ⟨3, ![1, 64, 3136]⟩
abbrev S1x64 : Shape := ⟨2, ![1, 64]⟩
abbrev S1x64x1 : Shape := ⟨3, ![1, 64, 1]⟩

abbrev nBuf : Space → Nat
  | .hbm => 11
  | .vmem => 8
  | .smem => 0
  | _ => 0

abbrev bufTy : (tb : Table) → Fin (tcTables nBuf tb) → BufTy
  | .hbm, ⟨0, _⟩ => ⟨S128x64x56x56, .f32⟩
  | .hbm, ⟨1, _⟩ => ⟨S4x64, .f32⟩
  | .hbm, ⟨2, _⟩ => ⟨S4, .f32⟩
  | .hbm, ⟨3, _⟩ => ⟨S64x4, .f32⟩
  | .hbm, ⟨4, _⟩ => ⟨S64, .f32⟩
  | .hbm, ⟨5, _⟩ => ⟨S128x64x3136, .f32⟩
  | .hbm, ⟨6, _⟩ => ⟨S64x4, .f32⟩
  | .hbm, ⟨7, _⟩ => ⟨S1x4, .f32⟩
  | .hbm, ⟨8, _⟩ => ⟨S64x1, .f32⟩
  | .hbm, ⟨9, _⟩ => ⟨S128x64x3136, .f32⟩
  | .hbm, ⟨10, _⟩ => ⟨S128x64x56x56, .f32⟩
  | .local _ .vmem, ⟨0, _⟩ => ⟨S1x64x3136, .f32⟩
  | .local _ .vmem, ⟨1, _⟩ => ⟨S1x64x3136, .f32⟩
  | .local _ .vmem, ⟨2, _⟩ => ⟨S64x4, .f32⟩
  | .local _ .vmem, ⟨3, _⟩ => ⟨S1x4, .f32⟩
  | .local _ .vmem, ⟨4, _⟩ => ⟨S64x4, .f32⟩
  | .local _ .vmem, ⟨5, _⟩ => ⟨S64x1, .f32⟩
  | .local _ .vmem, ⟨6, _⟩ => ⟨S1x64x3136, .f32⟩
  | .local _ .vmem, ⟨7, _⟩ => ⟨S1x64x3136, .f32⟩
  | _, _ => ⟨S128x64x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x64x3136 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128x64x56x56_S128x64x3136 : S128x64x56x56.ShapeCasts S128x64x3136
  transposes_S4x64_S64x4_1_0 : S4x64.Transposes [1, 0] S64x4
  shapeCasts_S4_S1x4 : S4.ShapeCasts S1x4
  shapeCasts_S64_S64x1 : S64.ShapeCasts S64x1
  inb_S1x64x3136_S1x64x3136_0_0_0 : ∀ a, (![0, 0, 0] : Fin 3 → Nat) a + S1x64x3136.size a ≤ S1x64x3136.size a
  h_S1x64x3136 : 0 < S1x64x3136.numel
  shapeCasts_S1x64x3136_S1x64x3136 : S1x64x3136.ShapeCasts S1x64x3136
  reduces_S1x64x3136_S1x64 : S1x64x3136.Reduces [2] S1x64
  shapeCasts_S1x64_S1x64x1 : S1x64.ShapeCasts S1x64x1
  shapeCasts_S1x64x1_S64x1 : S1x64x1.ShapeCasts S64x1
  inb_S64x4_S64x4_0_0 : ∀ a, (![0, 0] : Fin 2 → Nat) a + S64x4.size a ≤ S64x4.size a
  h_S64x4 : 0 < S64x4.numel
  shapeCasts_S64x4_S64x4 : S64x4.ShapeCasts S64x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x4 : S64x1.Broadcasts S64x4
  reduces_S64x4_S4 : S64x4.Reduces [0] S4
  broadcasts_S1x4_S64x4 : S1x4.Broadcasts S64x4
  reduces_S64x4_S64 : S64x4.Reduces [1] S64
  shapeCasts_S64x1_S1x64x1 : S64x1.ShapeCasts S1x64x1
  broadcasts_S1x64x1_S1x64x3136 : S1x64x1.Broadcasts S1x64x3136
  shapeCasts_S128x64x3136_S128x64x56x56 : S128x64x3136.ShapeCasts S128x64x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x3136.size a ≤ S128x64x3136.size a
  hwx0_0 : ∀ i : grid0.Coords, EltTy.bits .f32 = 32 ∨ (Rect.block (s := S128x64x3136) S1x64x3136.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4.size a ≤ S64x4.size a
  hwx0_1 : ∀ i : grid0.Coords, EltTy.bits .f32 = 32 ∨ (Rect.block (s := S64x4) S64x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4.size a ≤ S1x4.size a
  hwx0_2 : ∀ i : grid0.Coords, EltTy.bits .f32 = 32 ∨ (Rect.block (s := S1x4) S1x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x4.size a ≤ S64x4.size a
  hwx0_3 : ∀ i : grid0.Coords, EltTy.bits .f32 = 32 ∨ (Rect.block (s := S64x4) S64x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x3136.size a ≤ S128x64x3136.size a
  hwx0_5 : ∀ i : grid0.Coords, EltTy.bits .f32 = 32 ∨ (Rect.block (s := S128x64x3136) S1x64x3136.size (cc0_transform_5 i) (hinb0_5 i)).WholeWords (EltTy.packing .f32)

variable [Facts₀]

abbrev win0_0 : Pipeline.Window sig grid0 :=
  Pipeline.Window.ofSpec (Memref.whole main_v0) S1x64x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x64x3136.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.ChannelGate.lean ====
/-
  The function both programs compute, index by index over the extended reals, and the one law between their two
  arrangements of the spatial mean.

  For an input `x[n, c, h, w]` (128 samples, 64 channels, a 56 × 56 map), weights `w1[j, c]`, `w2[c, j]` and biases
  `b1[j]`, `b2[c]` (4 hidden units):
    pooled n c = (Σ_w Σ_h x[n, c, h, w]) · κ                       (κ the stored factor for 1/3136)
    hidden n j = max (Σ_c pooled n c · w1[j, c] + b1[j]) 0
    gate   n c = logistic (Σ_j w2[c, j] · hidden n j + b2[c])
    out[n, c, h, w] = x[n, c, h, w] · gate n c.
  One program sums the map over `h` and then over `w`; the other sums the flattened map over `k = 56·h + w`. Addition
  of extended reals is commutative and associative, so the two sums agree (`sum_flat`); no finiteness is used.
-/
import Idealize.ShloMosaic.PureOps.Ideal
import Idealize.ShloMosaic.Lib.ValueIdx

noncomputable section

open scoped BigOperators

namespace Cert.ChannelGate

open Idealize.ShloMosaic Idealize.ShloMosaic.ValueIdx

/-- The factor the mean over the 3136 positions is taken with: the stored single-precision word, read exactly. -/
abbrev kappa : EReal := Ideal.ofBits .f32 0x39A72F05#32

/-- The floor of the rectifier: the zero word, read exactly. -/
abbrev floor0 : EReal := Ideal.ofBits .f32 0x00000000#32

/-- The hidden layer from a sample's pooled channel means `p`: unit `j` is `max (Σ_c p c · w1[j, c] + b1[j]) 0`. -/
def hidden (w1 : (⟨2, ![4, 64]⟩ : Shape).Idx → EReal) (b1 : (⟨1, ![4]⟩ : Shape).Idx → EReal) (p : Fin 64 → EReal)
    (j : Fin 4) : EReal :=
  max ((∑ c : Fin 64, p c * w1 (ix2 j c)) + b1 (ix1 j)) floor0

/-- The gate of channel `c` from the pooled means: `logistic (Σ_j w2[c, j] · hidden j + b2[c])`. -/
def gate (w1 : (⟨2, ![4, 64]⟩ : Shape).Idx → EReal) (b1 : (⟨1, ![4]⟩ : Shape).Idx → EReal)
    (w2 : (⟨2, ![64, 4]⟩ : Shape).Idx → EReal) (b2 : (⟨1, ![64]⟩ : Shape).Idx → EReal) (p : Fin 64 → EReal)
    (c : Fin 64) : EReal :=
  Ideal.logistic ((∑ j : Fin 4, w2 (ix2 c j) * hidden w1 b1 p j) + b2 (ix1 c))

/-- Sample `n`'s pooled mean of channel `c`: the map summed over `h` inside and `w` outside, times `kappa`. -/
def pooled (x : (⟨4, ![128, 64, 56, 56]⟩ : Shape).Idx → EReal) (n : Fin 128) (c : Fin 64) : EReal :=
  (∑ w : Fin 56, ∑ h : Fin 56, x (ix4 n c h w)) * kappa

/-- The whole result: every entry of `x` times its sample's gate of its channel. -/
def scaled (x : (⟨4, ![128, 64, 56, 56]⟩ : Shape).Idx → EReal) (w1 : (⟨2, ![4, 64]⟩ : Shape).Idx → EReal)
    (b1 : (⟨1, ![4]⟩ : Shape).Idx → EReal) (w2 : (⟨2, ![64, 4]⟩ : Shape).Idx → EReal)
    (b2 : (⟨1, ![64]⟩ : Shape).Idx → EReal) : (⟨4, ![128, 64, 56, 56]⟩ : Shape).Idx → EReal :=
  fun i => x i * gate w1 b1 w2 b2 (pooled x (i 0)) (i 1)

/-- The result at coordinates: the entry times the gate of its channel from its sample's pooled means. -/
theorem scaled_apply (x : (⟨4, ![128, 64, 56, 56]⟩ : Shape).Idx → EReal) (w1 : (⟨2, ![4, 64]⟩ : Shape).Idx → EReal)
    (b1 : (⟨1, ![4]⟩ : Shape).Idx → EReal) (w2 : (⟨2, ![64, 4]⟩ : Shape).Idx → EReal)
    (b2 : (⟨1, ![64]⟩ : Shape).Idx → EReal) (n : Fin 128) (c : Fin 64) (h w : Fin 56) :
    scaled x w1 b1 w2 b2 (ix4 n c h w) = x (ix4 n c h w) * gate w1 b1 w2 b2 (pooled x n) c := rfl

/-- A sum over the flattened map, position `k` standing for row `k / 56` and column `k % 56`, is the sum over the
    columns of the sums over the rows: a re-indexing of a finite sum in a commutative monoid. -/
theorem sum_flat {M : Type*} [AddCommMonoid M] (f : Fin 56 → Fin 56 → M) :
    ∑ k : Fin 3136, f ⟨k.val / 56, by have := k.isLt; omega⟩ ⟨k.val % 56, Nat.mod_lt _ (by decide)⟩
      = ∑ w : Fin 56, ∑ h : Fin 56, f h w := by
  have e : ∑ k : Fin (56 * 56), f (finProdFinEquiv.symm k).1 (finProdFinEquiv.symm k).2
      = ∑ p : Fin 56 × Fin 56, f p.1 p.2 :=
    Equiv.sum_comp finProdFinEquiv.symm (fun p : Fin 56 × Fin 56 => f p.1 p.2)
  rw [Finset.sum_comm, ← Fintype.sum_prod_type', ← e]
  rfl

end Cert.ChannelGate

end
-- ==== Proof.KernelPayload.lean ====
/-
  The kernel body's stored value read at one entry of its block.

  A block holds four samples. The body sums each sample's map over the rows (axis 2), then over the columns (axis 3),
  scales by the stored factor, forms the hidden layer by a sum over the 64 channels, the gate by a sum over the 4 hidden
  units, and multiplies the block by the gate. Each reshape, transpose and broadcast in between only moves an entry; read
  at coordinates `(b, c, h, w)` the stored value is the block's entry times `gate` of sample `b`'s pooled means.
-/
import proofs.«169518_g2000409630349674_pallasbulk_1070_7_alg».proof.Proof.Gen.KernelIdeal.Skeleton
import proofs.«169518_g2000409630349674_pallasbulk_1070_7_alg».proof.Proof.ChannelGate
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Facts₀ Idealize.ShloMosaic Idealize.ShloMosaic.ValueIdx
open Cert.ChannelGate

/-! ## The body's intermediate values, named -/

/-- The pooled means of the block: rows summed, columns summed, times the stored factor; shape [4, 64, 1]. -/
def means (x0 : Vec Ideal S4x64x56x56 .f32) : FVec Ideal S4x64x1 .f32 :=
  mulf (shapeCast S4x64x1 (shapeCast S4x64x1x1 (multiReduction .add [3] S4x64x1 (shapeCast S4x64x1x56
    (multiReduction .add [2] S4x64x56 x0 0x00000000#32 reduces_S4x64x56x56_S4x64x56 (.inl rfl) rfl)
    shapeCasts_S4x64x56_S4x64x1x56) 0x00000000#32 reduces_S4x64x1x56_S4x64x1 (.inl rfl) rfl) shapeCasts_S4x64x1_S4x64x1x1)
    shapeCasts_S4x64x1x1_S4x64x1) (broadcast S4x64x1 (Scalar.ofBits .f32 0x39A72F05#32))

/-- The hidden layer of the block's four samples; shape [4, 1, 4]. -/
def hid (v7 : FVec Ideal S4x64x1 .f32) (v8 : Vec Ideal S4x64 .f32) (v20 : Vec Ideal S1x4 .f32) : FVec Ideal S4x1x4 .f32 :=
  maximumf (addf (shapeCast S4x1x4 (multiReduction .add [1] S4x4 (mulf (broadcastTo S4x64x4 v7 broadcasts_S4x64x1_S4x64x4)
    (broadcastTo S4x64x4 (shapeCast S1x64x4 (transpose S64x4 [1, 0] v8 transposes_S4x64_p1_0_S64x4) shapeCasts_S64x4_S1x64x4)
      broadcasts_S1x64x4_S4x64x4)) 0x00000000#32 reduces_S4x64x4_S4x4 (.inl rfl) rfl) shapeCasts_S4x4_S4x1x4)
    (broadcastTo S4x1x4 (shapeCast S1x1x4 (shapeCast S1x4 v20 shapeCasts_S1x4_S1x4) shapeCasts_S1x4_S1x1x4) broadcasts_S1x1x4_S4x1x4))
    (broadcast S4x1x4 (Scalar.ofBits .f32 0x00000000#32))

/-- The gates of the block's four samples; shape [4, 64, 1]. -/
def gates (v26 : FVec Ideal S4x1x4 .f32) (v27 : Vec Ideal S64x4 .f32) (v11 : Vec Ideal S1x64 .f32) : FVec Ideal S4x64x1 .f32 :=
  logistic (addf (shapeCast S4x64x1 (multiReduction .add [2] S4x64 (mulf
    (broadcastTo S4x64x4 (shapeCast S1x64x4 v27 shapeCasts_S64x4_S1x64x4) broadcasts_S1x64x4_S4x64x4)
    (broadcastTo S4x64x4 v26 broadcasts_S4x1x4_S4x64x4)) 0x00000000#32 reduces_S4x64x4_S4x64 (.inl rfl) rfl) shapeCasts_S4x64_S4x64x1)
    (broadcastTo S4x64x1 (shapeCast S1x64x1 (transpose S64x1 [1, 0] (shapeCast S1x64 v11 shapeCasts_S1x64_S1x64)
      transposes_S1x64_p1_0_S64x1) shapeCasts_S64x1_S1x64x1) broadcasts_S1x64x1_S4x64x1))

/-- The stored value is the block times the gates, broadcast over the map. -/
theorem pay_eq (x0 : Vec Ideal S4x64x56x56 .f32) (v8 : Vec Ideal S4x64 .f32) (v11 : Vec Ideal S1x64 .f32)
    (v20 : Vec Ideal S1x4 .f32) (v27 : Vec Ideal S64x4 .f32) :
    Gen.k0_pay1 x0 v8 v11 v20 v27 = mulf x0 (broadcastTo S4x64x56x56 (shapeCast S4x64x1x1
      (gates (hid (means x0) v8 v20) v27 v11) shapeCasts_S4x64x1_S4x64x1x1) broadcasts_S4x64x1x1_S4x64x56x56) := rfl

/-! ## Each, read at coordinates -/

/-- A block's pooled mean at sample `b`, channel `c`. -/
theorem means_apply (x0 : Vec Ideal S4x64x56x56 .f32) (b : Fin 4) (c : Fin 64) :
    means x0 (ix3 b c 0) = (∑ w : Fin 56, ∑ h : Fin 56, x0 (ix4 b c h w)) * kappa := by
  unfold means
  refine congrArg (· * kappa) ?_
  refine (shapeCast_apply _ _ (ix3 b c 0) (ix4 b c 0 0) (by
    rw [Shape.rowMajor_val_three, Shape.rowMajor_val_four]
    show ((b.val * 64 + c.val) * 1 + 0) * 1 + 0 = (b.val * 64 + c.val) * 1 + 0; omega)).trans ?_
  refine (shapeCast_apply _ _ (ix4 b c 0 0) (ix3 b c 0) (by
    rw [Shape.rowMajor_val_three, Shape.rowMajor_val_four]
    show (b.val * 64 + c.val) * 1 + 0 = ((b.val * 64 + c.val) * 1 + 0) * 1 + 0; omega)).trans ?_
  refine (Ideal.multiReduction_add_single _ _ reduces_S4x64x1x56_S4x64x1 _ _ (ix3 b c 0)).trans ?_
  refine Finset.sum_congr rfl fun w _ => ?_
  refine (shapeCast_apply _ _ _ (ix3 b c w) (by
    rw [Shape.rowMajor_val_three, Shape.rowMajor_val_four]
    show (b.val * 64 + c.val) * 56 + w.val = ((b.val * 64 + c.val) * 1 + 0) * 56 + w.val; omega)).trans ?_
  refine (Ideal.multiReduction_add_single _ _ reduces_S4x64x56x56_S4x64x56 _ _ (ix3 b c w)).trans ?_
  refine Finset.sum_congr rfl fun h _ => ?_
  refine congrArg x0 (funext fun a => Fin.ext ?_)
  match a with | ⟨0, _⟩ => rfl | ⟨1, _⟩ => rfl | ⟨2, _⟩ => rfl | ⟨3, _⟩ => rfl

/-- The rectified sum of two vectors at an entry. -/
theorem max_add_apply {s : Shape} (A B : FVec Ideal s .f32) (i : s.Idx) :
    maximumf (addf A B) (broadcast s (Scalar.ofBits .f32 0x00000000#32)) i = max (A i + B i) floor0 := rfl

/-- The logistic of a sum of two vectors at an entry. -/
theorem logistic_add_apply {s : Shape} (A B : FVec Ideal s .f32) (i : s.Idx) :
    logistic (addf A B) i = Ideal.logistic (A i + B i) := rfl

/-- Hidden unit `j` of sample `b`: the means against row `j` of the first weights, plus the bias, rectified. -/
theorem hid_apply (v7 : FVec Ideal S4x64x1 .f32) (v8 : Vec Ideal S4x64 .f32) (v20 : Vec Ideal S1x4 .f32) (b : Fin 4) (j : Fin 4) :
    hid v7 v8 v20 (ix3 b 0 j) = max ((∑ c : Fin 64, v7 (ix3 b c 0) * v8 (ix2 j c)) + v20 (ix2 0 j)) floor0 := by
  unfold hid
  refine (max_add_apply _ _ _).trans ?_
  refine congrArg₂ (fun a b => max (a + b) floor0) ?_ ?_
  · refine (shapeCast_apply _ _ (ix3 b 0 j) (ix2 b j) (by
      rw [Shape.rowMajor_val_two, Shape.rowMajor_val_three]
      show b.val * 4 + j.val = (b.val * 1 + 0) * 4 + j.val; omega)).trans ?_
    refine (Ideal.multiReduction_add_single _ _ reduces_S4x64x4_S4x4 _ _ (ix2 b j)).trans ?_
    refine Finset.sum_congr rfl fun c _ => ?_
    have hi : reduces_S4x64x4_S4x4.lift (ix2 b j) c = ix3 b c j := by
      funext a; apply Fin.ext
      match a with | ⟨0, _⟩ => rfl | ⟨1, _⟩ => rfl | ⟨2, _⟩ => rfl
    rw [hi]
    refine congrArg₂ (· * ·) ?_ ?_
    · exact broadcastTo_apply _ _ (ix3 b c j) (ix3 b c 0) (fun a => match a with
        | ⟨0, _⟩ => by show b.val = if (4 : Nat) = 1 then 0 else b.val; rw [if_neg (by decide)]
        | ⟨1, _⟩ => by show c.val = if (64 : Nat) = 1 then 0 else c.val; rw [if_neg (by decide)]
        | ⟨2, _⟩ => by show 0 = if (1 : Nat) = 1 then 0 else j.val; rw [if_pos rfl])
    · refine (broadcastTo_apply _ _ (ix3 b c j) (ix3 0 c j) (fun a => match a with
        | ⟨0, _⟩ => by show 0 = if (1 : Nat) = 1 then 0 else b.val; rw [if_pos rfl]
        | ⟨1, _⟩ => by show c.val = if (64 : Nat) = 1 then 0 else c.val; rw [if_neg (by decide)]
        | ⟨2, _⟩ => by show j.val = if (4 : Nat) = 1 then 0 else j.val; rw [if_neg (by decide)])).trans ?_
      refine (shapeCast_apply _ _ (ix3 0 c j) (ix2 c j) (by
        rw [Shape.rowMajor_val_two, Shape.rowMajor_val_three]
        show c.val * 4 + j.val = (0 * 64 + c.val) * 4 + j.val; omega)).trans ?_
      exact transpose_apply [1, 0] _ _ (ix2 c j) (ix2 j c) (fun a => match a with
        | ⟨0, _⟩ => rfl | ⟨1, _⟩ => rfl)
  · refine (broadcastTo_apply _ _ (ix3 b 0 j) (ix3 0 0 j) (fun a => match a with
      | ⟨0, _⟩ => by show 0 = if (1 : Nat) = 1 then 0 else b.val; rw [if_pos rfl]
      | ⟨1, _⟩ => by show 0 = if (1 : Nat) = 1 then 0 else 0; rw [if_pos rfl]
      | ⟨2, _⟩ => by show j.val = if (4 : Nat) = 1 then 0 else j.val; rw [if_neg (by decide)])).trans ?_
    refine (shapeCast_apply _ _ (ix3 0 0 j) (ix2 0 j) (by
      rw [Shape.rowMajor_val_two, Shape.rowMajor_val_three]
      show 0 * 4 + j.val = (0 * 1 + 0) * 4 + j.val; omega)).trans ?_
    exact shapeCast_apply _ _ (ix2 0 j) (ix2 0 j) rfl

/-- The gate of sample `b`, channel `c`: row `c` of the second weights against the hidden layer, plus the bias, through
    the logistic. -/
theorem gates_apply (v26 : FVec Ideal S4x1x4 .f32) (v27 : Vec Ideal S64x4 .f32) (v11 : Vec Ideal S1x64 .f32) (b : Fin 4) (c : Fin 64) :
    gates v26 v27 v11 (ix3 b c 0) = Ideal.logistic ((∑ j : Fin 4, v27 (ix2 c j) * v26 (ix3 b 0 j)) + v11 (ix2 0 c)) := by
  unfold gates
  refine (logistic_add_apply _ _ _).trans ?_
  refine congrArg₂ (fun a b => Ideal.logistic (a + b)) ?_ ?_
  · refine (shapeCast_apply _ _ (ix3 b c 0) (ix2 b c) (by
      rw [Shape.rowMajor_val_two, Shape.rowMajor_val_three]
      show b.val * 64 + c.val = (b.val * 64 + c.val) * 1 + 0; omega)).trans ?_
    refine (Ideal.multiReduction_add_single _ _ reduces_S4x64x4_S4x64 _ _ (ix2 b c)).trans ?_
    refine Finset.sum_congr rfl fun j _ => ?_
    have hi : reduces_S4x64x4_S4x64.lift (ix2 b c) j = ix3 b c j := by
      funext a; apply Fin.ext
      match a with | ⟨0, _⟩ => rfl | ⟨1, _⟩ => rfl | ⟨2, _⟩ => rfl
    rw [hi]
    refine congrArg₂ (· * ·) ?_ ?_
    · refine (broadcastTo_apply _ _ (ix3 b c j) (ix3 0 c j) (fun a => match a with
        | ⟨0, _⟩ => by show 0 = if (1 : Nat) = 1 then 0 else b.val; rw [if_pos rfl]
        | ⟨1, _⟩ => by show c.val = if (64 : Nat) = 1 then 0 else c.val; rw [if_neg (by decide)]
        | ⟨2, _⟩ => by show j.val = if (4 : Nat) = 1 then 0 else j.val; rw [if_neg (by decide)])).trans ?_
      exact shapeCast_apply _ _ (ix3 0 c j) (ix2 c j) (by
        rw [Shape.rowMajor_val_two, Shape.rowMajor_val_three]
        show c.val * 4 + j.val = (0 * 64 + c.val) * 4 + j.val; omega)
    · exact broadcastTo_apply _ _ (ix3 b c j) (ix3 b 0 j) (fun a => match a with
        | ⟨0, _⟩ => by show b.val = if (4 : Nat) = 1 then 0 else b.val; rw [if_neg (by decide)]
        | ⟨1, _⟩ => by show 0 = if (1 : Nat) = 1 then 0 else c.val; rw [if_pos rfl]
        | ⟨2, _⟩ => by show j.val = if (4 : Nat) = 1 then 0 else j.val; rw [if_neg (by decide)])
  · refine (broadcastTo_apply _ _ (ix3 b c 0) (ix3 0 c 0) (fun a => match a with
      | ⟨0, _⟩ => by show 0 = if (1 : Nat) = 1 then 0 else b.val; rw [if_pos rfl]
      | ⟨1, _⟩ => by show c.val = if (64 : Nat) = 1 then 0 else c.val; rw [if_neg (by decide)]
      | ⟨2, _⟩ => by show 0 = if (1 : Nat) = 1 then 0 else 0; rw [if_pos rfl])).trans ?_
    refine (shapeCast_apply _ _ (ix3 0 c 0) (ix2 c 0) (by
      rw [Shape.rowMajor_val_two, Shape.rowMajor_val_three]
      show c.val * 1 + 0 = (0 * 64 + c.val) * 1 + 0; omega)).trans ?_
    refine (transpose_apply [1, 0] _ _ (ix2 c 0) (ix2 0 c) (fun a => match a with
      | ⟨0, _⟩ => rfl | ⟨1, _⟩ => rfl)).trans ?_
    exact shapeCast_apply _ _ (ix2 0 c) (ix2 0 c) rfl

/-- The gates broadcast over the map, read at an entry of the block. -/
theorem spread_apply (g : FVec Ideal S4x64x1 .f32) (b : Fin 4) (c : Fin 64) (h w : Fin 56) :
    broadcastTo S4x64x56x56 (shapeCast S4x64x1x1 g shapeCasts_S4x64x1_S4x64x1x1) broadcasts_S4x64x1x1_S4x64x56x56 (ix4 b c h w)
      = g (ix3 b c 0) := by
  refine (broadcastTo_apply _ _ (ix4 b c h w) (ix4 b c 0 0) (fun a => match a with
    | ⟨0, _⟩ => by show b.val = if (4 : Nat) = 1 then 0 else b.val; rw [if_neg (by decide)]
    | ⟨1, _⟩ => by show c.val = if (64 : Nat) = 1 then 0 else c.val; rw [if_neg (by decide)]
    | ⟨2, _⟩ => by show 0 = if (1 : Nat) = 1 then 0 else h.val; rw [if_pos rfl]
    | ⟨3, _⟩ => by show 0 = if (1 : Nat) = 1 then 0 else w.val; rw [if_pos rfl])).trans ?_
  exact shapeCast_apply _ _ (ix4 b c 0 0) (ix3 b c 0) (by
    rw [Shape.rowMajor_val_three, Shape.rowMajor_val_four]
    show (b.val * 64 + c.val) * 1 + 0 = ((b.val * 64 + c.val) * 1 + 0) * 1 + 0; omega)

/-! ## The stored value at an entry -/

/-- The body's stored value at `(b, c, h, w)`: the block's entry times the gate of channel `c` computed from sample
    `b`'s pooled means, with the weights and biases as the body loaded them (the biases as one-row matrices). -/
theorem pay_apply (x0 : Vec Ideal S4x64x56x56 .f32) (v8 : Vec Ideal S4x64 .f32) (v11 : Vec Ideal S1x64 .f32)
    (v20 : Vec Ideal S1x4 .f32) (v27 : Vec Ideal S64x4 .f32) (b : Fin 4) (c : Fin 64) (h w : Fin 56) :
    Gen.k0_pay1 x0 v8 v11 v20 v27 (ix4 b c h w)
      = x0 (ix4 b c h w) * gate v8 (fun i => v20 (ix2 0 (i 0))) v27 (fun i => v11 (ix2 0 (i 0)))
          (fun c' => (∑ w' : Fin 56, ∑ h' : Fin 56, x0 (ix4 b c' h' w')) * kappa) c := by
  rw [pay_eq]
  show x0 (ix4 b c h w) * _ = _
  refine congrArg (x0 (ix4 b c h w) * ·) ?_
  rw [spread_apply, gates_apply]
  unfold gate ChannelGate.hidden
  simp only [hid_apply, means_apply]

end Cert.KernelIdeal.Payload

end
-- ==== Proof.KernelArray.lean ====
/-
  The kernel's result array as one function of the argument arrays.

  The grid has 32 points; point `t` stages samples `4t … 4t+3` of `x` (all channels, the whole map) and the four
  parameter arrays whole, and writes back the same four samples of the result. The two biases reach the body as one-row
  matrices, reshaped on the host before the call. What point `t` writes back is therefore the restriction to its block
  of `scaled` of the argument arrays: an entry of the block is an entry of `x`, the block's pooled means are the
  samples' pooled means, and the parameters are the arguments. The 32 blocks tile the array (sample `n` lies in block
  `n / 4`), so after the run the array is `scaled` everywhere.
-/
import proofs.«169518_g2000409630349674_pallasbulk_1070_7_alg».proof.Proof.Gen.KernelIdeal.Value
import proofs.«169518_g2000409630349674_pallasbulk_1070_7_alg».proof.Proof.KernelPayload
import Idealize.ShloMosaic.Lib.StableHlo.Run

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.ChannelGate

variable (m : (ℓ : Loc nD τ sig) → Buf (Elt Ideal) ℓ) (ρ : Dev nD → PrngReg)

theorem off4 : (![0, 0, 0, 0] : Fin 4 → Nat) = fun _ => 0 := funext fun a => by fin_cases a <;> rfl
theorem off2 : (![0, 0] : Fin 2 → Nat) = fun _ => 0 := funext fun a => by fin_cases a <;> rfl

/-- The result array's contents after the run: `scaled` of the five argument arrays. -/
abbrev result (c : Dev nD) : S128x64x56x56.Idx → EReal :=
  scaled (m ((c : Thread nD τ).loc main_arg0)) (m ((c : Thread nD τ).loc main_arg1)) (m ((c : Thread nD τ).loc main_arg2))
    (m ((c : Thread nD τ).loc main_arg3)) (m ((c : Thread nD τ).loc main_arg4))

/-! ## The biases as the call finds them -/

/-- The first bias, reshaped on the host to one row: entry `(0, j)` is the argument's entry `j`. -/
theorem bias1_row (c : Dev nD) (j : Fin 4) :
    (V m c main_v0 : S1x4.Idx → EReal) (ix2 0 j) = m ((c : Thread nD τ).loc main_arg2) (ix1 j) := by
  have e : (V m c main_v0 : S1x4.Idx → EReal)
      = shapeCast S1x4 (m ((c : Thread nD τ).loc main_arg2)) Facts₀.shapeCasts_S4_S1x4 := by
    dsimp only [V, hostOps0]; after_results; rfl
  rw [e]
  exact shapeCast_apply _ _ (ix2 0 j) (ix1 j) (by
    rw [Shape.rowMajor_val_one, Shape.rowMajor_val_two]; show j.val = 0 * 4 + j.val; omega)

/-- The second bias, reshaped on the host to one row: entry `(0, c')` is the argument's entry `c'`. -/
theorem bias2_row (c : Dev nD) (c' : Fin 64) :
    (V m c main_v1 : S1x64.Idx → EReal) (ix2 0 c') = m ((c : Thread nD τ).loc main_arg4) (ix1 c') := by
  have e : (V m c main_v1 : S1x64.Idx → EReal)
      = shapeCast S1x64 (m ((c : Thread nD τ).loc main_arg4)) Facts₀.shapeCasts_S64_S1x64 := by
    dsimp only [V, hostOps0]; after_results; rfl
  rw [e]
  exact shapeCast_apply _ _ (ix2 0 c') (ix1 c') (by
    rw [Shape.rowMajor_val_one, Shape.rowMajor_val_two]; show c'.val = 0 * 64 + c'.val; omega)

/-! ## The index maps, decided over the 32 points -/

/-- Point `t`'s blocks: block `t` along the samples for `x` and for the result, block 0 of every parameter array. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_5.index t (0 : Fin 4) = t.val ∧ win0_5.index t (1 : Fin 4) = 0 ∧ win0_5.index t (2 : Fin 4) = 0 ∧ win0_5.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every block of samples is some point's. -/
theorem idx_onto : ∀ q : Fin 32, ∃ t : Fin cfg0.N, win0_5.index t (0 : Fin 4) = q.val :=
  (by decide +kernel : ∀ q : Fin 32, ∃ t : Fin grid0.N, win0_5.index t (0 : Fin 4) = q.val)

/-! ## The blocks, read -/

/-- An entry of point `t`'s block of `x` is the argument's entry at sample `4t + b`. -/
theorem blk_x (c : Dev nD) (t : Fin cfg0.N) (b : Fin 4) (n : Fin 128) (hn : n.val = t.val * 4 + b.val) (c' : Fin 64) (h w : Fin 56) :
    iblk m c 0 t (ix4 b c' h w) = m ((c : Thread nD τ).loc main_arg0) (ix4 n c' h w) := by
  show V m c main_arg0 (((cfg0.win 0).blk t).view.emb (ix4 b c' h w)) = _
  rw [V_main_arg0]
  obtain ⟨e0, e1, e2, e3, -⟩ := idx_facts t
  refine congrArg _ (funext fun a => Fin.ext ?_)
  match a with
  | ⟨0, _⟩ => show win0_0.index t (0 : Fin 4) * 4 + 1 * b.val = n.val; omega
  | ⟨1, _⟩ => show win0_0.index t (1 : Fin 4) * 64 + 1 * c'.val = c'.val; omega
  | ⟨2, _⟩ => show win0_0.index t (2 : Fin 4) * 56 + 1 * h.val = h.val; omega
  | ⟨3, _⟩ => show win0_0.index t (3 : Fin 4) * 56 + 1 * w.val = w.val; omega

/-- Where an entry of point `t`'s block of the result lies in the array: sample `4t + b`. -/
theorem emb_out (t : Fin cfg0.N) (b : Fin 4) (n : Fin 128) (hn : n.val = t.val * 4 + b.val) (c' : Fin 64) (h w : Fin 56) :
    ((cfg0.win 5).blk t).view.emb (ix4 b c' h w) = ix4 n c' h w := by
  obtain ⟨-, -, -, -, e0, e1, e2, e3, -⟩ := idx_facts t
  funext a; apply Fin.ext
  match a with
  | ⟨0, _⟩ => show win0_5.index t (0 : Fin 4) * 4 + 1 * b.val = n.val; omega
  | ⟨1, _⟩ => show win0_5.index t (1 : Fin 4) * 64 + 1 * c'.val = c'.val; omega
  | ⟨2, _⟩ => show win0_5.index t (2 : Fin 4) * 56 + 1 * h.val = h.val; omega
  | ⟨3, _⟩ => show win0_5.index t (3 : Fin 4) * 56 + 1 * w.val = w.val; omega

/-- The block of the first weights is the whole argument. -/
theorem blk_w1 (c : Dev nD) (t : Fin cfg0.N) : (iblk m c 1 t : S4x64.Idx → EReal) = m ((c : Thread nD τ).loc main_arg1) := by
  funext y
  show V m c main_arg1 (((cfg0.win 1).blk t).view.emb y) = _
  rw [V_main_arg1]
  obtain ⟨-, -, -, -, -, -, -, -, e0, e1, -⟩ := idx_facts t
  refine congrArg _ (funext fun a => Fin.ext ?_)
  match a with
  | ⟨0, _⟩ => show win0_1.index t (0 : Fin 2) * 4 + 1 * (y 0).val = (y 0).val; omega
  | ⟨1, _⟩ => show win0_1.index t (1 : Fin 2) * 64 + 1 * (y 1).val = (y 1).val; omega

/-- The block of the second weights is the whole argument. -/
theorem blk_w2 (c : Dev nD) (t : Fin cfg0.N) : (iblk m c 3 t : S64x4.Idx → EReal) = m ((c : Thread nD τ).loc main_arg3) := by
  funext y
  show V m c main_arg3 (((cfg0.win 3).blk t).view.emb y) = _
  rw [V_main_arg3]
  obtain ⟨-, -, -, -, -, -, -, -, -, -, -, -, e0, e1, -⟩ := idx_facts t
  refine congrArg _ (funext fun a => Fin.ext ?_)
  match a with
  | ⟨0, _⟩ => show win0_3.index t (0 : Fin 2) * 64 + 1 * (y 0).val = (y 0).val; omega
  | ⟨1, _⟩ => show win0_3.index t (1 : Fin 2) * 4 + 1 * (y 1).val = (y 1).val; omega

/-- The block of the first bias, read along its one row, is the argument. -/
theorem blk_b1 (c : Dev nD) (t : Fin cfg0.N) :
    (fun i : (⟨1, ![4]⟩ : Shape).Idx => (iblk m c 2 t : S1x4.Idx → EReal) (ix2 0 (i 0))) = m ((c : Thread nD τ).loc main_arg2) := by
  funext i
  obtain ⟨j, rfl⟩ : ∃ j : Fin 4, i = ix1 j := ⟨i 0, eq_ix1 i⟩
  show V m c main_v0 (((cfg0.win 2).blk t).view.emb (ix2 0 j)) = _
  obtain ⟨-, -, -, -, -, -, -, -, -, -, e0, e1, -⟩ := idx_facts t
  have he : ((cfg0.win 2).blk t).view.emb (ix2 0 j) = ix2 0 j := by
    funext a; apply Fin.ext
    match a with
    | ⟨0, _⟩ => show win0_2.index t (0 : Fin 2) * 1 + 1 * 0 = 0; omega
    | ⟨1, _⟩ => show win0_2.index t (1 : Fin 2) * 4 + 1 * j.val = j.val; omega
  rw [he]
  exact bias1_row m c j

/-- The block of the second bias, read along its one row, is the argument. -/
theorem blk_b2 (c : Dev nD) (t : Fin cfg0.N) :
    (fun i : (⟨1, ![64]⟩ : Shape).Idx => (iblk m c 4 t : S1x64.Idx → EReal) (ix2 0 (i 0))) = m ((c : Thread nD τ).loc main_arg4) := by
  funext i
  obtain ⟨j, rfl⟩ : ∃ j : Fin 64, i = ix1 j := ⟨i 0, eq_ix1 i⟩
  show V m c main_v1 (((cfg0.win 4).blk t).view.emb (ix2 0 j)) = _
  obtain ⟨-, -, -, -, -, -, -, -, -, -, -, -, -, -, e0, e1⟩ := idx_facts t
  have he : ((cfg0.win 4).blk t).view.emb (ix2 0 j) = ix2 0 j := by
    funext a; apply Fin.ext
    match a with
    | ⟨0, _⟩ => show win0_4.index t (0 : Fin 2) * 1 + 1 * 0 = 0; omega
    | ⟨1, _⟩ => show win0_4.index t (1 : Fin 2) * 64 + 1 * j.val = j.val; omega
  rw [he]
  exact bias2_row m c j

/-! ## What a point writes back -/

/-- The gate depends on its five arguments only through their values. -/
theorem gate_congr {w1 w1' : (⟨2, ![4, 64]⟩ : Shape).Idx → EReal} {b1 b1' : (⟨1, ![4]⟩ : Shape).Idx → EReal}
    {w2 w2' : (⟨2, ![64, 4]⟩ : Shape).Idx → EReal} {b2 b2' : (⟨1, ![64]⟩ : Shape).Idx → EReal} {p p' : Fin 64 → EReal}
    (h1 : w1 = w1') (h2 : b1 = b1') (h3 : w2 = w2') (h4 : b2 = b2') (h5 : p = p') (c : Fin 64) :
    gate w1 b1 w2 b2 p c = gate w1' b1' w2' b2' p' c := by
  subst h1 h2 h3 h4 h5; rfl

/-- Point `t` writes back block `t` of `result`. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero off4]
  simp only [View.ld_unit_zero (S := S4x64x56x56) off4, View.ld_unit_zero (S := S4x64) off2,
    View.ld_unit_zero (S := S1x64) off2, View.ld_unit_zero (S := S1x4) off2, View.ld_unit_zero (S := S64x4) off2]
  funext y
  obtain ⟨b, c', h, w, rfl⟩ : ∃ (b : Fin 4) (c' : Fin 64) (h w : Fin 56), y = ix4 b c' h w := ⟨y 0, y 1, y 2, y 3, eq_ix4 y⟩
  have ht : t.val < 32 := lt_of_lt_of_eq t.isLt N_0
  have hb : b.val < 4 := b.isLt
  let n : Fin 128 := ⟨t.val * 4 + b.val, by omega⟩
  show k0_pay1 (iblk m c 0 t) (iblk m c 1 t) (iblk m c 4 t) (iblk m c 2 t) (iblk m c 3 t) (ix4 b c' h w)
    = result m c (((cfg0.win 5).blk t).view.emb (ix4 b c' h w))
  rw [emb_out t b n rfl c' h w]
  refine (Payload.pay_apply _ _ _ _ _ b c' h w).trans ?_
  refine Eq.trans ?_ (scaled_apply _ _ _ _ _ n c' h w).symm
  refine congrArg₂ (· * ·) (blk_x m c t b n rfl c' h w) ?_
  refine gate_congr (blk_w1 m c t) (blk_b1 m c t) (blk_w2 m c t) (blk_b2 m c t) ?_ c'
  funext c''
  unfold pooled
  refine congrArg (· * kappa) ?_
  exact Finset.sum_congr rfl fun w' _ => Finset.sum_congr rfl fun h' _ => blk_x m c t b n rfl c'' h' w'

/-! ## The blocks tile the array -/

/-- An index is in point `t`'s block iff each coordinate is in the block's range on its axis. -/
theorem mem_blk (t : Fin cfg0.N) (i : S128x64x56x56.Idx) :
    i ∈ ((cfg0.win 5).blk t).view.set ↔ ∀ a : Fin 4, win0_5.index t a * S4x64x56x56.size a ≤ (i a).val
      ∧ (i a).val < win0_5.index t a * S4x64x56x56.size a + S4x64x56x56.size a := by
  show i ∈ ((View.whole main_v2).slice (win0_5.rect t)).set ↔ _
  rw [View.set_slice_whole, Rect.mem_set_unit]
  exact Iff.rfl

/-- Every index of the array is in the block of the point its sample belongs to. -/
theorem cover (i : S128x64x56x56.Idx) : ∃ t : Fin cfg0.N, (cfg0.win 5).flush t = true ∧ i ∈ ((cfg0.win 5).blk t).view.set := by
  have hi0 : (i 0).val < 128 := (i 0).isLt
  have hi1 : (i 1).val < 64 := (i 1).isLt
  have hi2 : (i 2).val < 56 := (i 2).isLt
  have hi3 : (i 3).val < 56 := (i 3).isLt
  obtain ⟨t, ht⟩ := idx_onto ⟨(i 0).val / 4, by omega⟩
  have q0 : win0_5.index t (0 : Fin 4) = (i 0).val / 4 := ht
  obtain ⟨-, -, -, -, -, e1, e2, e3, -⟩ := idx_facts t
  refine ⟨t, flush0_5 t, ?_⟩
  rw [mem_blk]
  intro a
  match a with
  | ⟨0, _⟩ => show win0_5.index t (0 : Fin 4) * 4 ≤ (i 0).val ∧ (i 0).val < win0_5.index t (0 : Fin 4) * 4 + 4; omega
  | ⟨1, _⟩ => show win0_5.index t (1 : Fin 4) * 64 ≤ (i 1).val ∧ (i 1).val < win0_5.index t (1 : Fin 4) * 64 + 64; omega
  | ⟨2, _⟩ => show win0_5.index t (2 : Fin 4) * 56 ≤ (i 2).val ∧ (i 2).val < win0_5.index t (2 : Fin 4) * 56 + 56; omega
  | ⟨3, _⟩ => show win0_5.index t (3 : Fin 4) * 56 ≤ (i 3).val ∧ (i 3).val < win0_5.index t (3 : Fin 4) * 56 + 56; omega

/-- After the run the result array holds `result`. -/
theorem final (c : Dev nD) : (dats m 0 c).arrAt 5 cfg0.N = result m c :=
  (dats m 0 c).arrAt_eq_of_cover 5 (result m c) (fun t _ => flushed_eq m c t) cover

/-! ## The run -/

/-- Every weakly fair execution of the kernel program terminates with the result array at `result` and the arguments
    unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.ReferencePayload.lean ====
/-
  The reference body's stored value read at one entry of its block.

  A block holds one sample with its map flattened to 3136 positions. The body sums the map over the positions, scales by
  the stored factor, forms the hidden layer by a sum over the 64 channels (the first weights arrive transposed, and each
  product is taken weight first), the gate by a sum over the 4 hidden units, and multiplies the block by the gate. Read at
  channel `c`, position `k`, the stored value is the block's entry times `gate` of the sample's pooled means; the
  product's order is immaterial since multiplication of extended reals commutes.
-/
import proofs.«169518_g2000409630349674_pallasbulk_1070_7_alg».proof.Proof.Gen.ReferenceIdeal.Skeleton
import proofs.«169518_g2000409630349674_pallasbulk_1070_7_alg».proof.Proof.ChannelGate
import Idealize.ShloMosaic.Lib.Pipeline.Value
import Idealize.ShloMosaic.Lib.ValueIdx
import Idealize.ShloMosaic.PureOps.Ideal.Laws

noncomputable section

open scoped BigOperators

namespace Cert.ReferenceIdeal.Payload

open Cert.ReferenceIdeal Cert.ReferenceIdeal.Facts₀ Idealize.ShloMosaic Idealize.ShloMosaic.ValueIdx
open Cert.ChannelGate

/-! ## The body's intermediate values, named -/

/-- The sample's pooled means: the positions summed, times the stored factor; shape [64, 1]. -/
def means (v0 : Vec Ideal S1x64x3136 .f32) : FVec Ideal S64x1 .f32 :=
  mulf (shapeCast S64x1 (shapeCast S1x64x1 (multiReduction .add [2] S1x64
    (shapeCast S1x64x3136 v0 shapeCasts_S1x64x3136_S1x64x3136) 0x00000000#32 reduces_S1x64x3136_S1x64 (.inl rfl) rfl)
    shapeCasts_S1x64_S1x64x1) shapeCasts_S1x64x1_S64x1) (broadcast S64x1 (Scalar.ofBits .f32 0x39A72F05#32))

/-- The sample's hidden layer; shape [1, 4]. -/
def hid (v6 : FVec Ideal S64x1 .f32) (v7 : Vec Ideal S64x4 .f32) (v9 : Vec Ideal S1x4 .f32) : FVec Ideal S1x4 .f32 :=
  maximumf (addf (shapeCast S1x4 (multiReduction .add [0] S4 (mulf (shapeCast S64x4 v7 shapeCasts_S64x4_S64x4)
    (broadcastTo S64x4 v6 broadcasts_S64x1_S64x4)) 0x00000000#32 reduces_S64x4_S4 (.inl rfl) rfl) shapeCasts_S4_S1x4)
    (shapeCast S1x4 v9 shapeCasts_S1x4_S1x4)) (broadcast S1x4 (Scalar.ofBits .f32 0x00000000#32))

/-- The sample's gates; shape [64, 1]. -/
def gates (v20 : FVec Ideal S1x4 .f32) (v11 : Vec Ideal S64x4 .f32) (v12 : Vec Ideal S64x1 .f32) : FVec Ideal S64x1 .f32 :=
  logistic (addf (shapeCast S64x1 (multiReduction .add [1] S64 (mulf v11 (broadcastTo S64x4 v20 broadcasts_S1x4_S64x4))
    0x00000000#32 reduces_S64x4_S64 (.inl rfl) rfl) shapeCasts_S64_S64x1) (shapeCast S64x1 v12 shapeCasts_S64x1_S64x1))

/-- The stored value is the block times the gates, broadcast over the positions. -/
theorem pay_eq (v0 : Vec Ideal S1x64x3136 .f32) (v7 : Vec Ideal S64x4 .f32) (v9 : Vec Ideal S1x4 .f32)
    (v11 : Vec Ideal S64x4 .f32) (v12 : Vec Ideal S64x1 .f32) :
    Gen.k0_pay1 v0 v7 v9 v11 v12 = mulf (shapeCast S1x64x3136 v0 shapeCasts_S1x64x3136_S1x64x3136)
      (broadcastTo S1x64x3136 (shapeCast S1x64x1 (gates (hid (means v0) v7 v9) v11 v12) shapeCasts_S64x1_S1x64x1)
        broadcasts_S1x64x1_S1x64x3136) := rfl

/-! ## Each, read at coordinates -/

/-- The rectified sum of two vectors at an entry. -/
theorem max_add_apply {s : Shape} (A B : FVec Ideal s .f32) (i : s.Idx) :
    maximumf (addf A B) (broadcast s (Scalar.ofBits .f32 0x00000000#32)) i = max (A i + B i) floor0 := rfl

/-- The logistic of a sum of two vectors at an entry. -/
theorem logistic_add_apply {s : Shape} (A B : FVec Ideal s .f32) (i : s.Idx) :
    logistic (addf A B) i = Ideal.logistic (A i + B i) := rfl

/-- The sample's pooled mean of channel `c`. -/
theorem means_apply (v0 : Vec Ideal S1x64x3136 .f32) (c : Fin 64) :
    means v0 (ix2 c 0) = (∑ k : Fin 3136, v0 (ix3 0 c k)) * kappa := by
  unfold means
  refine congrArg (· * kappa) ?_
  refine (shapeCast_apply _ _ (ix2 c 0) (ix3 0 c 0) (by
    rw [Shape.rowMajor_val_two, Shape.rowMajor_val_three]
    show (0 * 64 + c.val) * 1 + 0 = c.val * 1 + 0; omega)).trans ?_
  refine (shapeCast_apply _ _ (ix3 0 c 0) (ix2 0 c) (by
    rw [Shape.rowMajor_val_two, Shape.rowMajor_val_three]
    show 0 * 64 + c.val = (0 * 64 + c.val) * 1 + 0; omega)).trans ?_
  refine (Ideal.multiReduction_add_single _ _ reduces_S1x64x3136_S1x64 _ _ (ix2 0 c)).trans ?_
  refine Finset.sum_congr rfl fun k _ => ?_
  refine (shapeCast_apply _ _ _ (ix3 0 c k) rfl).trans ?_
  rfl

/-- Hidden unit `j`: the means against column `j` of the transposed first weights, plus the bias, rectified. -/
theorem hid_apply (v6 : FVec Ideal S64x1 .f32) (v7 : Vec Ideal S64x4 .f32) (v9 : Vec Ideal S1x4 .f32) (j : Fin 4) :
    hid v6 v7 v9 (ix2 0 j) = max ((∑ c : Fin 64, v6 (ix2 c 0) * v7 (ix2 c j)) + v9 (ix2 0 j)) floor0 := by
  unfold hid
  refine (max_add_apply _ _ _).trans ?_
  refine congrArg₂ (fun a b => max (a + b) floor0) ?_ ?_
  · refine (shapeCast_apply _ _ (ix2 0 j) (ix1 j) (by
      rw [Shape.rowMajor_val_one, Shape.rowMajor_val_two]
      show j.val = 0 * 4 + j.val; omega)).trans ?_
    refine (Ideal.multiReduction_add_single _ _ reduces_S64x4_S4 _ _ (ix1 j)).trans ?_
    refine Finset.sum_congr rfl fun c _ => ?_
    have hi : reduces_S64x4_S4.lift (ix1 j) c = ix2 c j := by
      funext a; apply Fin.ext
      match a with | ⟨0, _⟩ => rfl | ⟨1, _⟩ => rfl
    rw [hi]
    refine (congrArg₂ (· * ·) ?_ ?_).trans (mul_comm _ _)
    · exact shapeCast_apply _ _ (ix2 c j) (ix2 c j) rfl
    · exact broadcastTo_apply _ _ (ix2 c j) (ix2 c 0) (fun a => match a with
        | ⟨0, _⟩ => by show c.val = if (64 : Nat) = 1 then 0 else c.val; rw [if_neg (by decide)]
        | ⟨1, _⟩ => by show 0 = if (1 : Nat) = 1 then 0 else j.val; rw [if_pos rfl])
  · exact shapeCast_apply _ _ (ix2 0 j) (ix2 0 j) rfl

/-- The gate of channel `c`: row `c` of the second weights against the hidden layer, plus the bias, through the logistic. -/
theorem gates_apply (v20 : FVec Ideal S1x4 .f32) (v11 : Vec Ideal S64x4 .f32) (v12 : Vec Ideal S64x1 .f32) (c : Fin 64) :
    gates v20 v11 v12 (ix2 c 0) = Ideal.logistic ((∑ j : Fin 4, v11 (ix2 c j) * v20 (ix2 0 j)) + v12 (ix2 c 0)) := by
  unfold gates
  refine (logistic_add_apply _ _ _).trans ?_
  refine congrArg₂ (fun a b => Ideal.logistic (a + b)) ?_ ?_
  · refine (shapeCast_apply _ _ (ix2 c 0) (ix1 c) (by
      rw [Shape.rowMajor_val_one, Shape.rowMajor_val_two]
      show c.val = c.val * 1 + 0; omega)).trans ?_
    refine (Ideal.multiReduction_add_single _ _ reduces_S64x4_S64 _ _ (ix1 c)).trans ?_
    refine Finset.sum_congr rfl fun j _ => ?_
    have hi : reduces_S64x4_S64.lift (ix1 c) j = ix2 c j := by
      funext a; apply Fin.ext
      match a with | ⟨0, _⟩ => rfl | ⟨1, _⟩ => rfl
    rw [hi]
    refine congrArg (v11 (ix2 c j) * ·) ?_
    exact broadcastTo_apply _ _ (ix2 c j) (ix2 0 j) (fun a => match a with
      | ⟨0, _⟩ => by show 0 = if (1 : Nat) = 1 then 0 else c.val; rw [if_pos rfl]
      | ⟨1, _⟩ => by show j.val = if (4 : Nat) = 1 then 0 else j.val; rw [if_neg (by decide)])
  · exact shapeCast_apply _ _ (ix2 c 0) (ix2 c 0) rfl

/-- The gates broadcast over the positions, read at an entry of the block. -/
theorem spread_apply (g : FVec Ideal S64x1 .f32) (c : Fin 64) (k : Fin 3136) :
    broadcastTo S1x64x3136 (shapeCast S1x64x1 g shapeCasts_S64x1_S1x64x1) broadcasts_S1x64x1_S1x64x3136 (ix3 0 c k)
      = g (ix2 c 0) := by
  refine (broadcastTo_apply _ _ (ix3 0 c k) (ix3 0 c 0) (fun a => match a with
    | ⟨0, _⟩ => by show 0 = if (1 : Nat) = 1 then 0 else 0; rw [if_pos rfl]
    | ⟨1, _⟩ => by show c.val = if (64 : Nat) = 1 then 0 else c.val; rw [if_neg (by decide)]
    | ⟨2, _⟩ => by show 0 = if (1 : Nat) = 1 then 0 else k.val; rw [if_pos rfl])).trans ?_
  exact shapeCast_apply _ _ (ix3 0 c 0) (ix2 c 0) (by
    rw [Shape.rowMajor_val_two, Shape.rowMajor_val_three]
    show c.val * 1 + 0 = (0 * 64 + c.val) * 1 + 0; omega)

/-! ## The stored value at an entry -/

/-- The body's stored value at channel `c`, position `k`: the block's entry times the gate of channel `c` computed
    from the sample's pooled means, with the weights and biases as the body loaded them (the first weights transposed, the
    biases as a one-row and a one-column matrix). -/
theorem pay_apply (v0 : Vec Ideal S1x64x3136 .f32) (v7 : Vec Ideal S64x4 .f32) (v9 : Vec Ideal S1x4 .f32)
    (v11 : Vec Ideal S64x4 .f32) (v12 : Vec Ideal S64x1 .f32) (c : Fin 64) (k : Fin 3136) :
    Gen.k0_pay1 v0 v7 v9 v11 v12 (ix3 0 c k)
      = v0 (ix3 0 c k) * gate (fun i => v7 (ix2 (i 1) (i 0))) (fun i => v9 (ix2 0 (i 0))) v11 (fun i => v12 (ix2 (i 0) 0))
          (fun c' => (∑ k' : Fin 3136, v0 (ix3 0 c' k')) * kappa) c := by
  rw [pay_eq]
  show (shapeCast S1x64x3136 v0 shapeCasts_S1x64x3136_S1x64x3136) (ix3 0 c k) * _ = _
  refine congrArg₂ (· * ·) (shapeCast_apply _ _ (ix3 0 c k) (ix3 0 c k) rfl) ?_
  rw [spread_apply, gates_apply]
  unfold gate ChannelGate.hidden
  simp only [hid_apply, means_apply]

end Cert.ReferenceIdeal.Payload

end
-- ==== Proof.ReferenceArray.lean ====
/-
  The reference's result array as one function of the argument arrays.

  Before its call the host flattens each map of `x` to 3136 positions (position `k` is row `k / 56`, column `k % 56`),
  transposes the first weights, and reshapes the biases to a row and a column. The grid has 128 points; point `t` stages
  sample `t` of the flattened `x` and the four parameter arrays whole, and writes back sample `t` of the flattened
  result. What it writes back is the restriction to its block of `flat`, the flattening of `scaled` of the argument
  arrays: the sum over the positions is the sum over columns of sums over rows (`sum_flat`), and the transposed weights
  and reshaped biases read back as the arguments. The 128 blocks tile the array, and the host's reshape after the call
  turns `flat` back into `scaled`.
-/
import proofs.«169518_g2000409630349674_pallasbulk_1070_7_alg».proof.Proof.Gen.ReferenceIdeal.Frame
import proofs.«169518_g2000409630349674_pallasbulk_1070_7_alg».proof.Proof.ReferencePayload
import Idealize.ShloMosaic.Lib.StableHlo.Run
import Idealize.ShloMosaic.Lib.Pipeline.Value

noncomputable section

open scoped BigOperators

namespace Cert.ReferenceIdeal.Whole

open Cert.ReferenceIdeal Cert.ReferenceIdeal.Gen Idealize.ShloMosaic Idealize.ShloMosaic.TcCoe Idealize.SL.Sem
open Idealize.ShloMosaic.ValueIdx Idealize.ShloMosaic.StableHlo
open Idealize.ShloMosaic.Pipeline (Dat)
open Cert.ChannelGate

variable (m : (ℓ : Loc nD τ sig) → Buf (Elt Ideal) ℓ) (ρ : Dev nD → PrngReg)

theorem off3 : (![0, 0, 0] : Fin 3 → Nat) = fun _ => 0 := funext fun a => by fin_cases a <;> rfl
theorem off2 : (![0, 0] : Fin 2 → Nat) = fun _ => 0 := funext fun a => by fin_cases a <;> rfl

/-- The program's result: `scaled` of the five argument arrays. -/
abbrev result (c : Dev nD) : S128x64x56x56.Idx → EReal :=
  scaled (m ((c : Thread nD τ).loc main_arg0)) (m ((c : Thread nD τ).loc main_arg1)) (m ((c : Thread nD τ).loc main_arg2))
    (m ((c : Thread nD τ).loc main_arg3)) (m ((c : Thread nD τ).loc main_arg4))

/-- Row and column of a flattened position. -/
abbrev rowOf (k : Fin 3136) : Fin 56 := ⟨k.val / 56, by have := k.isLt; omega⟩
abbrev colOf (k : Fin 3136) : Fin 56 := ⟨k.val % 56, Nat.mod_lt _ (by decide)⟩

/-- The call's result array: `result` with each map flattened. -/
abbrev flat (c : Dev nD) : S128x64x3136.Idx → EReal :=
  fun i => result m c (ix4 (i 0) (i 1) (rowOf (i 2)) (colOf (i 2)))

/-! ## The arrays as the call finds them -/

/-- The flattened `x`: entry `(n, c', k)` is the argument's entry at row `k / 56`, column `k % 56`. -/
theorem x_flat (c : Dev nD) (n : Fin 128) (c' : Fin 64) (k : Fin 3136) :
    (V m c main_v0 : S128x64x3136.Idx → EReal) (ix3 n c' k)
      = m ((c : Thread nD τ).loc main_arg0) (ix4 n c' (rowOf k) (colOf k)) := by
  have e : (V m c main_v0 : S128x64x3136.Idx → EReal)
      = shapeCast S128x64x3136 (m ((c : Thread nD τ).loc main_arg0)) Facts₀.shapeCasts_S128x64x56x56_S128x64x3136 := by
    show StableHlo.after hostOps0 (fun b => m (c, b)) (Proc.devRef .tc main_v0) = _
    after_results; rfl
  rw [e]
  exact shapeCast_apply _ _ (ix3 n c' k) (ix4 n c' (rowOf k) (colOf k)) (by
    rw [Shape.rowMajor_val_three, Shape.rowMajor_val_four]
    show ((n.val * 64 + c'.val) * 56 + k.val / 56) * 56 + k.val % 56 = (n.val * 64 + c'.val) * 3136 + k.val
    have := k.isLt; omega)

/-- The transposed first weights: entry `(c', j)` is the argument's entry `(j, c')`. -/
theorem w1_transposed (c : Dev nD) (c' : Fin 64) (j : Fin 4) :
    (V m c main_v1 : S64x4.Idx → EReal) (ix2 c' j) = m ((c : Thread nD τ).loc main_arg1) (ix2 j c') := by
  have e : (V m c main_v1 : S64x4.Idx → EReal)
      = transpose S64x4 [1, 0] (m ((c : Thread nD τ).loc main_arg1)) Facts₀.transposes_S4x64_S64x4_1_0 := by
    show StableHlo.after hostOps0 (fun b => m (c, b)) (Proc.devRef .tc main_v1) = _
    after_results
  rw [e]
  exact transpose_apply [1, 0] _ _ (ix2 c' j) (ix2 j c') (fun a => match a with | ⟨0, _⟩ => rfl | ⟨1, _⟩ => rfl)

/-- The first bias as one row. -/
theorem bias1_row (c : Dev nD) (j : Fin 4) :
    (V m c main_v2 : S1x4.Idx → EReal) (ix2 0 j) = m ((c : Thread nD τ).loc main_arg2) (ix1 j) := by
  have e : (V m c main_v2 : S1x4.Idx → EReal)
      = shapeCast S1x4 (m ((c : Thread nD τ).loc main_arg2)) Facts₀.shapeCasts_S4_S1x4 := by
    show StableHlo.after hostOps0 (fun b => m (c, b)) (Proc.devRef .tc main_v2) = _
    after_results; rfl
  rw [e]
  exact shapeCast_apply _ _ (ix2 0 j) (ix1 j) (by
    rw [Shape.rowMajor_val_one, Shape.rowMajor_val_two]; show j.val = 0 * 4 + j.val; omega)

/-- The second bias as one column. -/
theorem bias2_col (c : Dev nD) (c' : Fin 64) :
    (V m c main_v3 : S64x1.Idx → EReal) (ix2 c' 0) = m ((c : Thread nD τ).loc main_arg4) (ix1 c') := by
  have e : (V m c main_v3 : S64x1.Idx → EReal)
      = shapeCast S64x1 (m ((c : Thread nD τ).loc main_arg4)) Facts₀.shapeCasts_S64_S64x1 := by
    show StableHlo.after hostOps0 (fun b => m (c, b)) (Proc.devRef .tc main_v3) = _
    after_results; rfl
  rw [e]
  exact shapeCast_apply _ _ (ix2 c' 0) (ix1 c') (by
    rw [Shape.rowMajor_val_one, Shape.rowMajor_val_two]; show c'.val = c'.val * 1 + 0; omega)

/-! ## The index maps, decided over the 128 points -/

theorem idx_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every sample is some point's. -/
theorem idx_onto : ∀ q : Fin 128, ∃ t : Fin cfg0.N, win0_5.index t (0 : Fin 3) = q.val :=
  (by decide +kernel : ∀ q : Fin 128, ∃ t : Fin grid0.N, win0_5.index t (0 : Fin 3) = q.val)

/-! ## The blocks, read -/

/-- An entry of point `t`'s block of the flattened `x` is the argument's entry of sample `t`. -/
theorem blk_x (c : Dev nD) (t : Fin cfg0.N) (n : Fin 128) (hn : n.val = t.val) (c' : Fin 64) (k : Fin 3136) :
    iblk m c 0 t (ix3 0 c' k) = m ((c : Thread nD τ).loc main_arg0) (ix4 n c' (rowOf k) (colOf k)) := by
  show V m c main_v0 (((cfg0.win 0).blk t).view.emb (ix3 0 c' k)) = _
  obtain ⟨e0, e1, e2, -⟩ := idx_facts t
  have he : ((cfg0.win 0).blk t).view.emb (ix3 0 c' k) = ix3 n c' k := by
    funext a; apply Fin.ext
    match a with
    | ⟨0, _⟩ => show win0_0.index t (0 : Fin 3) * 1 + 1 * 0 = n.val; omega
    | ⟨1, _⟩ => show win0_0.index t (1 : Fin 3) * 64 + 1 * c'.val = c'.val; omega
    | ⟨2, _⟩ => show win0_0.index t (2 : Fin 3) * 3136 + 1 * k.val = k.val; omega
  rw [he]
  exact x_flat m c n c' k

/-- Where an entry of point `t`'s block of the result lies in the array: sample `t`. -/
theorem emb_out (t : Fin cfg0.N) (n : Fin 128) (hn : n.val = t.val) (c' : Fin 64) (k : Fin 3136) :
    ((cfg0.win 5).blk t).view.emb (ix3 0 c' k) = ix3 n c' k := by
  obtain ⟨-, -, -, e0, e1, e2, -⟩ := idx_facts t
  funext a; apply Fin.ext
  match a with
  | ⟨0, _⟩ => show win0_5.index t (0 : Fin 3) * 1 + 1 * 0 = n.val; omega
  | ⟨1, _⟩ => show win0_5.index t (1 : Fin 3) * 64 + 1 * c'.val = c'.val; omega
  | ⟨2, _⟩ => show win0_5.index t (2 : Fin 3) * 3136 + 1 * k.val = k.val; omega

/-- The block of the transposed first weights, read transposed, is the argument. -/
theorem blk_w1 (c : Dev nD) (t : Fin cfg0.N) :
    (fun i : (⟨2, ![4, 64]⟩ : Shape).Idx => (iblk m c 1 t : S64x4.Idx → EReal) (ix2 (i 1) (i 0))) = m ((c : Thread nD τ).loc main_arg1) := by
  funext i
  obtain ⟨j, c', rfl⟩ : ∃ (j : Fin 4) (c' : Fin 64), i = ix2 j c' := ⟨i 0, i 1, eq_ix2 i⟩
  show V m c main_v1 (((cfg0.win 1).blk t).view.emb (ix2 c' j)) = _
  obtain ⟨-, -, -, -, -, -, e0, e1, -⟩ := idx_facts t
  have he : ((cfg0.win 1).blk t).view.emb (ix2 c' j) = ix2 c' j := by
    funext a; apply Fin.ext
    match a with
    | ⟨0, _⟩ => show win0_1.index t (0 : Fin 2) * 64 + 1 * c'.val = c'.val; omega
    | ⟨1, _⟩ => show win0_1.index t (1 : Fin 2) * 4 + 1 * j.val = j.val; omega
  rw [he]
  exact w1_transposed m c c' j

/-- The block of the first bias, read along its one row, is the argument. -/
theorem blk_b1 (c : Dev nD) (t : Fin cfg0.N) :
    (fun i : (⟨1, ![4]⟩ : Shape).Idx => (iblk m c 2 t : S1x4.Idx → EReal) (ix2 0 (i 0))) = m ((c : Thread nD τ).loc main_arg2) := by
  funext i
  obtain ⟨j, rfl⟩ : ∃ j : Fin 4, i = ix1 j := ⟨i 0, eq_ix1 i⟩
  show V m c main_v2 (((cfg0.win 2).blk t).view.emb (ix2 0 j)) = _
  obtain ⟨-, -, -, -, -, -, -, -, e0, e1, -⟩ := idx_facts t
  have he : ((cfg0.win 2).blk t).view.emb (ix2 0 j) = ix2 0 j := by
    funext a; apply Fin.ext
    match a with
    | ⟨0, _⟩ => show win0_2.index t (0 : Fin 2) * 1 + 1 * 0 = 0; omega
    | ⟨1, _⟩ => show win0_2.index t (1 : Fin 2) * 4 + 1 * j.val = j.val; omega
  rw [he]
  exact bias1_row m c j

/-- The block of the second weights is the whole argument. -/
theorem blk_w2 (c : Dev nD) (t : Fin cfg0.N) : (iblk m c 3 t : S64x4.Idx → EReal) = m ((c : Thread nD τ).loc main_arg3) := by
  funext y
  show V m c main_arg3 (((cfg0.win 3).blk t).view.emb y) = _
  rw [V_main_arg3]
  obtain ⟨-, -, -, -, -, -, -, -, -, -, e0, e1, -⟩ := idx_facts t
  refine congrArg _ (funext fun a => Fin.ext ?_)
  match a with
  | ⟨0, _⟩ => show win0_3.index t (0 : Fin 2) * 64 + 1 * (y 0).val = (y 0).val; omega
  | ⟨1, _⟩ => show win0_3.index t (1 : Fin 2) * 4 + 1 * (y 1).val = (y 1).val; omega

/-- The block of the second bias, read along its one column, is the argument. -/
theorem blk_b2 (c : Dev nD) (t : Fin cfg0.N) :
    (fun i : (⟨1, ![64]⟩ : Shape).Idx => (iblk m c 4 t : S64x1.Idx → EReal) (ix2 (i 0) 0)) = m ((c : Thread nD τ).loc main_arg4) := by
  funext i
  obtain ⟨j, rfl⟩ : ∃ j : Fin 64, i = ix1 j := ⟨i 0, eq_ix1 i⟩
  show V m c main_v3 (((cfg0.win 4).blk t).view.emb (ix2 j 0)) = _
  obtain ⟨-, -, -, -, -, -, -, -, -, -, -, -, e0, e1⟩ := idx_facts t
  have he : ((cfg0.win 4).blk t).view.emb (ix2 j 0) = ix2 j 0 := by
    funext a; apply Fin.ext
    match a with
    | ⟨0, _⟩ => show win0_4.index t (0 : Fin 2) * 64 + 1 * j.val = j.val; omega
    | ⟨1, _⟩ => show win0_4.index t (1 : Fin 2) * 1 + 1 * 0 = 0; omega
  rw [he]
  exact bias2_col m c j

/-! ## What a point writes back -/

/-- The gate depends on its five arguments only through their values. -/
theorem gate_congr {w1 w1' : (⟨2, ![4, 64]⟩ : Shape).Idx → EReal} {b1 b1' : (⟨1, ![4]⟩ : Shape).Idx → EReal}
    {w2 w2' : (⟨2, ![64, 4]⟩ : Shape).Idx → EReal} {b2 b2' : (⟨1, ![64]⟩ : Shape).Idx → EReal} {p p' : Fin 64 → EReal}
    (h1 : w1 = w1') (h2 : b1 = b1') (h3 : w2 = w2') (h4 : b2 = b2') (h5 : p = p') (c : Fin 64) :
    gate w1 b1 w2 b2 p c = gate w1' b1' w2' b2' p' c := by
  subst h1 h2 h3 h4 h5; rfl

/-- Point `t` writes back block `t` of `flat`. -/
theorem flushed_eq (c : Dev nD) (t : Fin cfg0.N) :
    (dats m 0 c).flushed 5 t = ((cfg0.win 5).blk t).view.read (Elt Ideal) (flat m c) := by
  show (cfg0.win 5).cut (grid0.coords t) ((dats m 0 c).after 5 t) = _
  rw [after0_5]
  unfold out0_5
  rw [View.canon_unit_zero off3]
  simp only [View.ld_unit_zero (S := S1x64x3136) off3, View.ld_unit_zero (S := S64x4) off2,
    View.ld_unit_zero (S := S1x4) off2, View.ld_unit_zero (S := S64x1) off2]
  funext y
  obtain ⟨z, c', k, rfl⟩ : ∃ (z : Fin 1) (c' : Fin 64) (k : Fin 3136), y = ix3 z c' k := ⟨y 0, y 1, y 2, eq_ix3 y⟩
  obtain rfl : z = 0 := Subsingleton.elim _ _
  have ht : t.val < 128 := lt_of_lt_of_eq t.isLt N_0
  let n : Fin 128 := ⟨t.val, ht⟩
  show k0_pay1 (iblk m c 0 t) (iblk m c 1 t) (iblk m c 2 t) (iblk m c 3 t) (iblk m c 4 t) (ix3 0 c' k)
    = flat m c (((cfg0.win 5).blk t).view.emb (ix3 0 c' k))
  rw [emb_out t n rfl c' k]
  refine (Payload.pay_apply _ _ _ _ _ c' k).trans ?_
  refine Eq.trans ?_ (scaled_apply _ _ _ _ _ n c' (rowOf k) (colOf k)).symm
  refine congrArg₂ (· * ·) (blk_x m c t n rfl c' k) ?_
  refine gate_congr (blk_w1 m c t) (blk_b1 m c t) (blk_w2 m c t) (blk_b2 m c t) ?_ c'
  funext c''
  unfold pooled
  refine congrArg (· * kappa) ?_
  refine Eq.trans (Finset.sum_congr (M := EReal) rfl fun k' _ => blk_x m c t n rfl c'' k') ?_
  exact sum_flat (M := EReal) fun h w => m ((c : Thread nD τ).loc main_arg0) (ix4 n c'' h w)

/-! ## The blocks tile the array -/

theorem mem_blk (t : Fin cfg0.N) (i : S128x64x3136.Idx) :
    i ∈ ((cfg0.win 5).blk t).view.set ↔ ∀ a : Fin 3, win0_5.index t a * S1x64x3136.size a ≤ (i a).val
      ∧ (i a).val < win0_5.index t a * S1x64x3136.size a + S1x64x3136.size a := by
  show i ∈ ((View.whole main_v4).slice (win0_5.rect t)).set ↔ _
  rw [View.set_slice_whole, Rect.mem_set_unit]
  exact Iff.rfl

/-- Every index of the array is in the block of its sample's point. -/
theorem cover (i : S128x64x3136.Idx) : ∃ t : Fin cfg0.N, (cfg0.win 5).flush t = true ∧ i ∈ ((cfg0.win 5).blk t).view.set := by
  have hi0 : (i 0).val < 128 := (i 0).isLt
  have hi1 : (i 1).val < 64 := (i 1).isLt
  have hi2 : (i 2).val < 3136 := (i 2).isLt
  obtain ⟨t, ht⟩ := idx_onto ⟨(i 0).val, hi0⟩
  have q0 : win0_5.index t (0 : Fin 3) = (i 0).val := ht
  obtain ⟨-, -, -, -, e1, e2, -⟩ := idx_facts t
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 64 ≤ (i 1).val ∧ (i 1).val < win0_5.index t (1 : Fin 3) * 64 + 64; omega
  | ⟨2, _⟩ => show win0_5.index t (2 : Fin 3) * 3136 ≤ (i 2).val ∧ (i 2).val < win0_5.index t (2 : Fin 3) * 3136 + 3136; omega

/-- After the call its result array holds `flat`. -/
theorem final (c : Dev nD) : (dats m 0 c).arrAt 5 cfg0.N = flat m c :=
  (dats m 0 c).arrAt_eq_of_cover 5 (flat m c) (fun t _ => flushed_eq m c t) cover

/-! ## The reshape after the call, and the run -/

/-- Un-flattening `flat` gives `result`: position `56·h + w` has row `h` and column `w`. -/
theorem unflatten (c : Dev nD) :
    shapeCast S128x64x56x56 (flat m c) Facts₀.shapeCasts_S128x64x3136_S128x64x56x56 = result m c := by
  funext i
  obtain ⟨n, c', h, w, rfl⟩ : ∃ (n : Fin 128) (c' : Fin 64) (h w : Fin 56), i = ix4 n c' h w := ⟨i 0, i 1, i 2, i 3, eq_ix4 i⟩
  have hh : h.val < 56 := h.isLt
  have hw : w.val < 56 := w.isLt
  refine (shapeCast_apply _ _ (ix4 n c' h w) (ix3 n c' ⟨h.val * 56 + w.val, by omega⟩) (by
    rw [Shape.rowMajor_val_three, Shape.rowMajor_val_four]
    show (n.val * 64 + c'.val) * 3136 + (h.val * 56 + w.val) = ((n.val * 64 + c'.val) * 56 + h.val) * 56 + w.val
    omega)).trans ?_
  show result m c (ix4 n c' ⟨(h.val * 56 + w.val) / 56, _⟩ ⟨(h.val * 56 + w.val) % 56, _⟩) = _
  refine congrArg _ (funext fun a => Fin.ext ?_)
  match a with
  | ⟨0, _⟩ => rfl
  | ⟨1, _⟩ => rfl
  | ⟨2, _⟩ => show (h.val * 56 + w.val) / 56 = h.val; omega
  | ⟨3, _⟩ => show (h.val * 56 + w.val) % 56 = w.val; omega

/-- What the program's result buffer holds after the host's reshape of the call's result. -/
theorem tail_result (c : Dev nD) :
    Pipeline.afterTail₀ cfgs (dats m) 0 (V0 m) [hostOps1] c main_v5 = result m c := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v4)
      = flat m c := (Pipeline.withArrays_arr spec0 launch0.win.arr_inj c _ _ 5).trans (final m c)
  rw [hw]
  exact unflatten m c

/-- Every weakly fair execution of the reference program terminates with its result at `result` and the arguments
    unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v5 (Pipeline.mem_restRefs_of main_v5 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.ReferenceIdeal.Whole

end
-- ==== Proof.lean ====
/-
  A channel-attention layer (global average pool over the 56 × 56 map, two small dense layers with a rectifier between
  them, a logistic gate, and a rescaling of the input by the gate), computed by a kernel that works on blocks of four
  samples in the input's own four-axis layout, against a reference that works on one sample at a time with the map
  flattened to 3136 positions.

  Over the extended reals both compute, at every entry,
      out[n, c, h, w] = x[n, c, h, w] · logistic (Σ_j w2[c, j] · max (Σ_c' mean[n, c'] · w1[j, c'] + b1[j]) 0 + b2[c]),
      mean[n, c'] = (Σ over the map of x[n, c', ·, ·]) · κ,
  with the same stored factor κ on both sides. The kernel sums the map over rows and then over columns, the reference over
  the flattened positions; the reference multiplies weight by mean where the kernel multiplies mean by weight. Sums and
  products of extended reals are commutative and associative, so neither difference needs the inputs to be finite.

  `Proof/ChannelGate.lean` states the function (`scaled`) and the re-indexing of the sum; `Proof/KernelPayload.lean` and
  `Proof/ReferencePayload.lean` read each body's stored value at an entry; `Proof/KernelArray.lean` and
  `Proof/ReferenceArray.lean` assemble each program's result array from its blocks (for the reference also through the
  host's reshapes before and after the call). The two runs then end at `scaled` of arguments that agree.
-/
import proofs.«169518_g2000409630349674_pallasbulk_1070_7_alg».proof.Defs
import proofs.«169518_g2000409630349674_pallasbulk_1070_7_alg».proof.Proof.Gen.Kernel
import proofs.«169518_g2000409630349674_pallasbulk_1070_7_alg».proof.Proof.Gen.Kernel.Skeleton
import proofs.«169518_g2000409630349674_pallasbulk_1070_7_alg».proof.Proof.Gen.Kernel.Launch
import proofs.«169518_g2000409630349674_pallasbulk_1070_7_alg».proof.Proof.Gen.Kernel.Points
import proofs.«169518_g2000409630349674_pallasbulk_1070_7_alg».proof.Proof.Gen.Kernel.Frame
import proofs.«169518_g2000409630349674_pallasbulk_1070_7_alg».proof.Proof.Gen.KernelIdeal
import proofs.«169518_g2000409630349674_pallasbulk_1070_7_alg».proof.Proof.Gen.KernelIdeal.Skeleton
import proofs.«169518_g2000409630349674_pallasbulk_1070_7_alg».proof.Proof.Gen.KernelIdeal.Launch
import proofs.«169518_g2000409630349674_pallasbulk_1070_7_alg».proof.Proof.Gen.KernelIdeal.Points
import proofs.«169518_g2000409630349674_pallasbulk_1070_7_alg».proof.Proof.Gen.KernelIdeal.Frame
import proofs.«169518_g2000409630349674_pallasbulk_1070_7_alg».proof.Proof.Gen.ReferenceIdeal
import proofs.«169518_g2000409630349674_pallasbulk_1070_7_alg».proof.Proof.Gen.ReferenceIdeal.Skeleton
import proofs.«169518_g2000409630349674_pallasbulk_1070_7_alg».proof.Proof.Gen.ReferenceIdeal.Launch
import proofs.«169518_g2000409630349674_pallasbulk_1070_7_alg».proof.Proof.Gen.ReferenceIdeal.Points
import proofs.«169518_g2000409630349674_pallasbulk_1070_7_alg».proof.Proof.Gen.ReferenceIdeal.Frame
import proofs.«169518_g2000409630349674_pallasbulk_1070_7_alg».proof.Proof.Gen.Pre_finite_inputs
import proofs.«169518_g2000409630349674_pallasbulk_1070_7_alg».proof.Proof.KernelArray
import proofs.«169518_g2000409630349674_pallasbulk_1070_7_alg».proof.Proof.ReferenceArray
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference. -/
theorem frame_referenceIdeal : Cert.frame_ReferenceIdeal := fun m ρ _ => Cert.ReferenceIdeal.Gen.frame m ρ

/-- No operation of the kernel was rewritten for the reading over the extended reals. -/
theorem preserves : Cert.preserves_Kernel_KernelIdeal := trivial

/-- From memories that agree on the five arguments both programs end with `scaled` of those arguments in their result. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Whole.run m' ρ')
  obtain ⟨h0, h1, h2, h3, h4⟩ := hagree c
  show Cert.ChannelGate.scaled _ _ _ _ _ = Cert.ChannelGate.scaled _ _ _ _ _
  rw [h0, h1, h2, h3, h4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
